-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x64 .f32) (main_arg5 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x4096x4096 .f32) (main_arg1 : FVec F S2x4096x4096 .f32) (main_arg2 : FVec F S4096x4096 .f32) (main_arg3 : FVec F S64x4096 .f32) (main_arg4 : FVec F S4096x64 .f32) (main_arg5 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_v13 main_v16
-- ==== Kernel.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S256x4096 : Shape := ⟨2, ![256, 4096]⟩
abbrev S256x64 : Shape := ⟨2, ![256, 64]⟩
abbrev S256 : Shape := ⟨1, ![256]⟩
abbrev S1x256x4096 : Shape := ⟨3, ![1, 256, 4096]⟩
abbrev S1x4096 : Shape := ⟨2, ![1, 4096]⟩

abbrev nBuf : Space → Nat
  | .hbm => 8
  | .vmem => 18
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096x4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S4096, .f32⟩
  | .hbm, ⟨7, _⟩ => ⟨S2x4096x4096, .f32⟩
  | .local _ .vmem, ⟨0, _⟩ => ⟨S256x4096, .f32⟩
  | .local _ .vmem, ⟨1, _⟩ => ⟨S256x4096, .f32⟩
  | .local _ .vmem, ⟨2, _⟩ => ⟨S64x4096, .f32⟩
  | .local _ .vmem, ⟨3, _⟩ => ⟨S256x64, .f32⟩
  | .local _ .vmem, ⟨4, _⟩ => ⟨S256x64, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S1x256x4096, .f32⟩
  | .local _ .vmem, ⟨10, _⟩ => ⟨S1x256x4096, .f32⟩
  | .local _ .vmem, ⟨11, _⟩ => ⟨S1x256x4096, .f32⟩
  | .local _ .vmem, ⟨12, _⟩ => ⟨S1x256x4096, .f32⟩
  | .local _ .vmem, ⟨13, _⟩ => ⟨S64x4096, .f32⟩
  | .local _ .vmem, ⟨14, _⟩ => ⟨S4096x64, .f32⟩
  | .local _ .vmem, ⟨15, _⟩ => ⟨S4096, .f32⟩
  | .local _ .vmem, ⟨16, _⟩ => ⟨S1x256x4096, .f32⟩
  | .local _ .vmem, ⟨17, _⟩ => ⟨S1x256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  reduces_S256x4096_S256 : S256x4096.Reduces [1] S256
  inb_S256_S256_0 : ∀ a, (![0] : Fin 1 → Nat) a + S256.size a ≤ S256.size a
  h_S256 : 0 < S256.numel
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x64_S4096x64_0_0 : ∀ a, (![0, 0] : Fin 2 → Nat) a + S4096x64.size a ≤ S4096x64.size a
  h_S4096x64 : 0 < S4096x64.numel
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  shapeCasts_S256x4096_S1x256x4096 : S256x4096.ShapeCasts S1x256x4096
  dot_S256x64_S64x4096_S256x4096_1_0_0_1_n_n_wf : DotDims.WF S256x64 S64x4096 S256x4096 [1] [0] [0] [1] [] []
  dot_S256x4096_S64x4096_S256x64_1_1_0_0_n_n_wf : DotDims.WF S256x4096 S64x4096 S256x64 [1] [1] [0] [0] [] []
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4096.size a
  hwx0_3 : ∀ i : grid0.Coords, EltTy.bits .f32 = 32 ∨ (Rect.block (s := S4096) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S2x4096x4096.size a
  hwx1_0 : ∀ i : grid1.Coords, EltTy.bits .f32 = 32 ∨ (Rect.block (s := S2x4096x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S2x4096x4096.size a
  hwx1_1 : ∀ i : grid1.Coords, EltTy.bits .f32 = 32 ∨ (Rect.block (s := S2x4096x4096) S1x256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S4096x64.size a
  hwx1_3 : ∀ i : grid1.Coords, EltTy.bits .f32 = 32 ∨ (Rect.block (s := S4096x64) S4096x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S4096.size a
  hwx1_4 : ∀ i : grid1.Coords, EltTy.bits .f32 = 32 ∨ (Rect.block (s := S4096) S4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x4096.size a ≤ S2x4096x4096.size a
  hwx1_5 : ∀ i : grid1.Coords, EltTy.bits .f32 = 32 ∨ (Rect.block (s := S2x4096x4096) S1x256x4096.size (cc1_transform_5 i) (hinb1_5 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S2x4096x64 : Shape := ⟨3, ![2, 4096, 64]⟩
abbrev S_ : Shape := ⟨0, ![]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096x4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S2x4096x64, .f32⟩
  | .hbm, ⟨7, _⟩ => ⟨S2x4096x4096, .f32⟩
  | .hbm, ⟨8, _⟩ => ⟨S_, .f32⟩
  | .hbm, ⟨9, _⟩ => ⟨S2x4096x4096, .f32⟩
  | .hbm, ⟨10, _⟩ => ⟨S2x4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S2x4096x4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S64x4096_S2x4096x64_2_1_01_0_n_n_wf : DotDims.WF S2x4096x4096 S64x4096 S2x4096x64 [2] [1] [0, 1] [0] [] []
  dot_S2x4096x64_S4096x64_S2x4096x4096_2_1_01_0_n_n_wf : DotDims.WF S2x4096x64 S4096x64 S2x4096x4096 [2] [1] [0, 1] [0] [] []
  dot_S4096x64_S64x4096_S4096x4096_1_0_0_1_n_n_wf : DotDims.WF S4096x64 S64x4096 S4096x4096 [1] [0] [0] [1] [] []

variable [Facts₀]

def dot_S2x4096x4096_S64x4096_S2x4096x64_2_1_01_0_n_n : DotDims S2x4096x4096 S64x4096 S2x4096x64 where
  lhsContracting := [2]
  rhsContracting := [1]
  lhsNonContracting := [0, 1]
  rhsNonContracting := [0]
  lhsBatch := []
  rhsBatch := []
  wf := dot_S2x4096x4096_S64x4096_S2x4096x64_2_1_01_0_n_n_wf
def dot_S2x4096x64_S4096x64_S2x4096x4096_2_1_01_0_n_n : DotDims S2x4096x64 S4096x64 S2x4096x4096 where
  lhsContracting := [2]
  rhsContracting := [1]
  lhsNonContracting := [0, 1]
  rhsNonContracting := [0]
  lhsBatch := []
  rhsBatch := []
  wf := dot_S2x4096x64_S4096x64_S2x4096x4096_2_1_01_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  What the two launches compute, as functions of the argument arrays over the extended reals.

  The weight W (4096 × 4096) is adapted by a rank-64 update: entry (o, d) of the adapted weight is

      W(o, d) + (∑ r, B(o, r) · A(r, d)) · 2,

  and row o's magnitude scale is  mag(o) / (√(∑ d, adapted(o, d)²) + guard).  The result at (b, s, o) is

      (base(b, s, o) + (∑ r, (∑ d, x(b, s, d) · A(r, d)) · B(o, r)) · 2) · scale(o).

  Both are stated for ANY number of rows, because a row of either depends only on that row of the row-indexed
  operands: a block of consecutive rows computed from the matching rows of W, B and mag (or of x and base) is the
  same block of the whole. `rowScaleAt_congr` and `outAt` (which takes its rows as functions) are how that is used.
-/
import Idealize.ShloMosaic.PureOps.Ideal.Laws
import Idealize.ShloMosaic.Lib.ValueIdx

noncomputable section

open scoped BigOperators

namespace Cert.Dora

open Idealize.ShloMosaic Idealize.ShloMosaic.ValueIdx

/-- The adapter's scaling, alpha over rank: the float 2.0. -/
abbrev scaling : EReal := Ideal.ofBits .f32 0x40000000#32
/-- The guard added to a row's norm before dividing: the float nearest 1e-8. -/
abbrev guard : EReal := Ideal.ofBits .f32 0x322BCC77#32

variable {M M' : Nat}

/-- Entry (p, d) of the adapted weight rows: the base weight plus twice the rank-64 product of B's row p with A's
    column d. -/
def adapted (W : FVec Ideal ⟨2, ![M, 4096]⟩ .f32) (A : FVec Ideal ⟨2, ![64, 4096]⟩ .f32) (B : FVec Ideal ⟨2, ![M, 64]⟩ .f32)
    (p : Fin M) (d : Fin 4096) : EReal :=
  W (ix2 p d) + (∑ r : Fin 64, B (ix2 p r) * A (ix2 r d)) * scaling

/-- Row p's magnitude scale: the magnitude over the guarded Euclidean norm of the adapted row. -/
def rowScaleAt (W : FVec Ideal ⟨2, ![M, 4096]⟩ .f32) (A : FVec Ideal ⟨2, ![64, 4096]⟩ .f32) (B : FVec Ideal ⟨2, ![M, 64]⟩ .f32)
    (mag : FVec Ideal ⟨1, ![M]⟩ .f32) (p : Fin M) : EReal :=
  Ideal.div (mag (ix1 p)) (Ideal.sqrt (∑ d : Fin 4096, adapted W A B p d * adapted W A B p d) + guard)

/-- The scales of all rows, as an array. -/
def rowScale (W : FVec Ideal ⟨2, ![M, 4096]⟩ .f32) (A : FVec Ideal ⟨2, ![64, 4096]⟩ .f32) (B : FVec Ideal ⟨2, ![M, 64]⟩ .f32)
    (mag : FVec Ideal ⟨1, ![M]⟩ .f32) : FVec Ideal ⟨1, ![M]⟩ .f32 :=
  fun j => rowScaleAt W A B mag (j 0)

theorem rowScale_ix1 (W : FVec Ideal ⟨2, ![M, 4096]⟩ .f32) (A : FVec Ideal ⟨2, ![64, 4096]⟩ .f32) (B : FVec Ideal ⟨2, ![M, 64]⟩ .f32)
    (mag : FVec Ideal ⟨1, ![M]⟩ .f32) (p : Fin M) : rowScale W A B mag (ix1 p) = rowScaleAt W A B mag p := rfl

/-- A row's scale depends only on that row of W, of B and of mag: two families of rows that agree on row p and row p'
    have the same scale there. -/
theorem rowScaleAt_congr (W : FVec Ideal ⟨2, ![M, 4096]⟩ .f32) (W' : FVec Ideal ⟨2, ![M', 4096]⟩ .f32)
    (A A' : FVec Ideal ⟨2, ![64, 4096]⟩ .f32) (B : FVec Ideal ⟨2, ![M, 64]⟩ .f32) (B' : FVec Ideal ⟨2, ![M', 64]⟩ .f32)
    (mag : FVec Ideal ⟨1, ![M]⟩ .f32) (mag' : FVec Ideal ⟨1, ![M']⟩ .f32) (p : Fin M) (p' : Fin M')
    (hW : ∀ d, W (ix2 p d) = W' (ix2 p' d)) (hA : ∀ r d, A (ix2 r d) = A' (ix2 r d))
    (hB : ∀ r, B (ix2 p r) = B' (ix2 p' r)) (hm : mag (ix1 p) = mag' (ix1 p')) :
    rowScaleAt W A B mag p = rowScaleAt W' A' B' mag' p' := by
  unfold rowScaleAt adapted
  simp only [hW, hA, hB, hm]

/-- One entry of the result, from its row of x and its row of the base output: the base entry plus twice the
    rank-64 projection of x's row through A and back through B's row o, times row o's scale. -/
def outAt (x bo : Fin 4096 → EReal) (A : FVec Ideal ⟨2, ![64, 4096]⟩ .f32) (B : FVec Ideal ⟨2, ![4096, 64]⟩ .f32)
    (scale : FVec Ideal ⟨1, ![4096]⟩ .f32) (o : Fin 4096) : EReal :=
  (bo o + (∑ r : Fin 64, (∑ d : Fin 4096, x d * A (ix2 r d)) * B (ix2 o r)) * scaling) * scale (ix1 o)

/-- An entry depends only on its rows of x and of the base output, on A, on row o of B and on scale o. -/
theorem outAt_congr (x x' bo bo' : Fin 4096 → EReal) (A A' : FVec Ideal ⟨2, ![64, 4096]⟩ .f32)
    (B B' : FVec Ideal ⟨2, ![4096, 64]⟩ .f32) (scale scale' : FVec Ideal ⟨1, ![4096]⟩ .f32) (o : Fin 4096)
    (hx : ∀ d, x d = x' d) (hbo : bo o = bo' o) (hA : ∀ r d, A (ix2 r d) = A' (ix2 r d))
    (hB : ∀ r, B (ix2 o r) = B' (ix2 o r)) (hs : scale (ix1 o) = scale' (ix1 o)) :
    outAt x bo A B scale o = outAt x' bo' A' B' scale' o := by
  unfold outAt
  simp only [hx, hbo, hA, hB, hs]

/-- The whole result from x, the base output, the two adapter factors and the row scales. -/
def scaled (x bo : FVec Ideal ⟨3, ![2, 4096, 4096]⟩ .f32) (A : FVec Ideal ⟨2, ![64, 4096]⟩ .f32)
    (B : FVec Ideal ⟨2, ![4096, 64]⟩ .f32) (scale : FVec Ideal ⟨1, ![4096]⟩ .f32) : FVec Ideal ⟨3, ![2, 4096, 4096]⟩ .f32 :=
  fun i => outAt (fun d => x (ix3 (i 0) (i 1) d)) (fun o => bo (ix3 (i 0) (i 1) o)) A B scale (i 2)

theorem scaled_ix3 (x bo : FVec Ideal ⟨3, ![2, 4096, 4096]⟩ .f32) (A : FVec Ideal ⟨2, ![64, 4096]⟩ .f32)
    (B : FVec Ideal ⟨2, ![4096, 64]⟩ .f32) (scale : FVec Ideal ⟨1, ![4096]⟩ .f32) (b : Fin 2) (s o : Fin 4096) :
    scaled x bo A B scale (ix3 b s o)
      = outAt (fun d => x (ix3 b s d)) (fun o' => bo (ix3 b s o')) A B scale o := rfl

/-- The layer: the result with the scales taken from the adapted weight's rows. -/
def layer (x bo : FVec Ideal ⟨3, ![2, 4096, 4096]⟩ .f32) (W : FVec Ideal ⟨2, ![4096, 4096]⟩ .f32)
    (A : FVec Ideal ⟨2, ![64, 4096]⟩ .f32) (B : FVec Ideal ⟨2, ![4096, 64]⟩ .f32) (mag : FVec Ideal ⟨1, ![4096]⟩ .f32) :
    FVec Ideal ⟨3, ![2, 4096, 4096]⟩ .f32 :=
  scaled x bo A B (rowScale W A B mag)

end Cert.Dora
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.NormPayload.lean ====
/-
  The first launch's body at one row.

  At a block of 256 rows the body forms the block of B times A (a plain 256 × 64 by 64 × 4096 product into the zero
  array), doubles it, adds the block of W, squares, sums each row over its 4096 columns, takes the square root, adds
  the guard and divides the block of the magnitude by the result. Read at row p this is the specification's
  `rowScaleAt` of the four blocks: the product at (p, d) is the sum over r of B(p, r) · A(r, d), and the row sum's
  inserted index is (p, d).
-/
import proofs.«124880_j14869176779242_1_alg».proof.Proof.Gen.KernelIdeal.Skeleton
import proofs.«124880_j14869176779242_1_alg».proof.Proof.Spec
import proofs.«124880_j14869176779242_1_alg».proof.Proof.LibDotPlain

noncomputable section

open scoped BigOperators

namespace Cert.Dora.Norm

open Cert.KernelIdeal Cert.KernelIdeal.Gen Idealize.ShloMosaic Idealize.ShloMosaic.ValueIdx

/-- The body's dimension numbers for the block of B times A are the plain product's. -/
theorem dims_plain : dot_S256x64_S64x4096_S256x4096_1_0_0_1_n_n = DotDims.plain 256 64 4096 := rfl

/-- The block of B times A at (p, d), with both factors passed through the format change that is the identity on
    extended reals. -/
theorem product_at (B : FVec Ideal S256x64 .f32) (A : FVec Ideal S64x4096 .f32) (p : Fin 256) (d : Fin 4096) :
    matmul dot_S256x64_S64x4096_S256x4096_1_0_0_1_n_n none (truncf .bf16 B bitsLt_bf16_f32) (truncf .bf16 A bitsLt_bf16_f32)
        (constant S256x4096 .f32 0x00000000#32) (ix2 p d)
      = ∑ r : Fin 64, B (ix2 p r) * A (ix2 r d) := by
  rw [dims_plain]
  exact Cert.LibDotPlain.matmul_zero_plain 256 64 4096 none (truncf .bf16 B bitsLt_bf16_f32) (truncf .bf16 A bitsLt_bf16_f32) p d

/-- A row sum of a 256 × 4096 array from the float zero, at row p: the sum over the columns d of the entry (p, d). -/
theorem rowsum_at (v : FVec Ideal S256x4096 .f32) (h : S256x4096.Reduces [1] S256) (hφ : FKind.Formats .f32)
    (hacc : (0x00000000#32 : BitVec 32) = 0x00000000#32) (p : Fin 256) :
    multiReduction .add [1] S256 v 0x00000000#32 h hφ hacc (ix1 p) = ∑ d : Fin 4096, v (ix2 p d) := by
  refine (Ideal.multiReduction_add_single v 0x00000000#32 h hφ hacc (ix1 p)).trans ?_
  refine Finset.sum_congr rfl fun d _ => congrArg v ?_
  funext a
  apply Fin.ext
  match a with
  | ⟨0, _⟩ => rfl
  | ⟨1, _⟩ => rfl

/-- The body's stored value at row p is the specification's scale of row p of the four blocks it loaded. -/
theorem payload_at (x0 : Vec Ideal S256x4096 .f32) (x1 : Vec Ideal S64x4096 .f32) (x2 : Vec Ideal S256x64 .f32)
    (x3 : Vec Ideal S256 .f32) (p : Fin 256) :
    k0_pay1 (F := Ideal) x0 x1 x2 x3 (ix1 p) = Dora.rowScaleAt x0 x1 x2 x3 p := by
  unfold k0_pay1 Dora.rowScaleAt Dora.adapted
  show Ideal.div (x3 (ix1 p)) (Ideal.sqrt (multiReduction (F := Ideal) (φ := .f32) .add [1] S256 _ 0x00000000#32 _ _ _ (ix1 p)) + _) = _
  rw [rowsum_at]
  simp only [mulf_apply, addf_apply, broadcast_apply, product_at]
  rfl

end Cert.Dora.Norm
-- ==== Proof.NormValue.lean ====
/-
  The first launch's output array: the row scales of the arrays the launch is entered with.

  The grid has 16 points; point t is handed rows 256 t … 256 t + 255 of W, of B and of the magnitude, and the whole
  of A, and writes back rows 256 t … 256 t + 255 of the output. What it writes at row p of its block is the
  specification's scale of row p of the blocks (the body's value at a row), which is the scale of row 256 t + p of the
  whole arrays, because a row's scale depends on that row only. Every row of the output lies in exactly the block of
  the point (row / 256), so after the last write-back the output array is the array of all row scales.
-/
import proofs.«124880_j14869176779242_1_alg».proof.Proof.Gen.KernelIdeal.Frame
import proofs.«124880_j14869176779242_1_alg».proof.Proof.NormPayload
import Idealize.ShloMosaic.Lib.Pipeline.Value

noncomputable section

namespace Cert.Dora.Norm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero1 : (![0] : Fin 1 → Nat) = fun _ => 0 := funext fun a => by fin_cases a; rfl
theorem zero2 : (![0, 0] : Fin 2 → Nat) = fun _ => 0 := funext fun a => by fin_cases a <;> rfl

/-! ## The arrays the launch is entered with, and the blocks a point is handed -/

abbrev wArr (c : Dev nD) : Vec Ideal S4096x4096 .f32 := V c main_arg2
abbrev aArr (c : Dev nD) : Vec Ideal S64x4096 .f32 := V c main_arg3
abbrev bArr (c : Dev nD) : Vec Ideal S4096x64 .f32 := V c main_arg4
abbrev magArr (c : Dev nD) : Vec Ideal S4096 .f32 := V c main_arg5
abbrev wBlk (c : Dev nD) (t : Fin cfg0.N) : Vec Ideal S256x4096 .f32 := iblk0 V c 0 t
abbrev aBlk (c : Dev nD) (t : Fin cfg0.N) : Vec Ideal S64x4096 .f32 := iblk0 V c 1 t
abbrev bBlk (c : Dev nD) (t : Fin cfg0.N) : Vec Ideal S256x64 .f32 := iblk0 V c 2 t
abbrev magBlk (c : Dev nD) (t : Fin cfg0.N) : Vec Ideal S256 .f32 := iblk0 V c 3 t

/-- All row scales of the entry arrays. -/
abbrev scales (c : Dev nD) : Vec Ideal S4096 .f32 := Dora.rowScale (wArr V c) (aArr V c) (bArr V c) (magArr V c)

/-- The block indices over the grid: the row-blocked windows move with the point along the rows and stay at column
    block 0; A's window stays at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 1) = t.val ∧ win0_4.index t (0 : Fin 1) = t.val :=
  (by decide +kernel : ∀ t : Fin grid0.N, _)

theorem point_lt (t : Fin cfg0.N) : t.val < 16 := lt_of_lt_of_eq t.isLt N_0

/-- Row p of point t's blocks is row 256 t + p of the arrays. -/
def row (t : Fin cfg0.N) (p : Fin 256) : Fin 4096 := ⟨256 * t.val + p.val, by have := point_lt t; omega⟩

/-! ## Each block read through the array -/

theorem wBlk_at (c : Dev nD) (t : Fin cfg0.N) (p : Fin 256) (d : Fin 4096) :
    wBlk V c t (ix2 p d) = wArr V c (ix2 (row t p) d) := by
  obtain ⟨e0, e1, -⟩ := block_index t
  show wArr V c (((cfg0.win 0).blk t).view.emb (ix2 p d)) = wArr V c (ix2 (row t p) d)
  refine congrArg (wArr V c) ?_
  funext a
  apply Fin.ext
  match a with
  | ⟨0, _⟩ => show win0_0.index t (0 : Fin 2) * 256 + 1 * p.val = 256 * t.val + p.val; omega
  | ⟨1, _⟩ => show win0_0.index t (1 : Fin 2) * 4096 + 1 * d.val = d.val; omega

theorem aBlk_at (c : Dev nD) (t : Fin cfg0.N) (r : Fin 64) (d : Fin 4096) :
    aBlk V c t (ix2 r d) = aArr V c (ix2 r d) := by
  obtain ⟨-, -, e0, e1, -⟩ := block_index t
  show aArr V c (((cfg0.win 1).blk t).view.emb (ix2 r d)) = aArr V c (ix2 r d)
  refine congrArg (aArr V c) ?_
  funext a
  apply Fin.ext
  match a with
  | ⟨0, _⟩ => show win0_1.index t (0 : Fin 2) * 64 + 1 * r.val = r.val; omega
  | ⟨1, _⟩ => show win0_1.index t (1 : Fin 2) * 4096 + 1 * d.val = d.val; omega

theorem bBlk_at (c : Dev nD) (t : Fin cfg0.N) (p : Fin 256) (r : Fin 64) :
    bBlk V c t (ix2 p r) = bArr V c (ix2 (row t p) r) := by
  obtain ⟨-, -, -, -, e0, e1, -⟩ := block_index t
  show bArr V c (((cfg0.win 2).blk t).view.emb (ix2 p r)) = bArr V c (ix2 (row t p) r)
  refine congrArg (bArr V c) ?_
  funext a
  apply Fin.ext
  match a with
  | ⟨0, _⟩ => show win0_2.index t (0 : Fin 2) * 256 + 1 * p.val = 256 * t.val + p.val; omega
  | ⟨1, _⟩ => show win0_2.index t (1 : Fin 2) * 64 + 1 * r.val = r.val; omega

theorem magBlk_at (c : Dev nD) (t : Fin cfg0.N) (p : Fin 256) :
    magBlk V c t (ix1 p) = magArr V c (ix1 (row t p)) := by
  obtain ⟨-, -, -, -, -, -, e0, -⟩ := block_index t
  show magArr V c (((cfg0.win 3).blk t).view.emb (ix1 p)) = magArr V c (ix1 (row t p))
  refine congrArg (magArr V c) ?_
  funext a
  apply Fin.ext
  match a with
  | ⟨0, _⟩ => show win0_3.index t (0 : Fin 1) * 256 + 1 * p.val = 256 * t.val + p.val; omega

/-! ## What a point writes back -/

/-- The scale of row p of point t's blocks is the scale of row 256 t + p of the arrays. -/
theorem block_scale (c : Dev nD) (t : Fin cfg0.N) (p : Fin 256) :
    Dora.rowScaleAt (wBlk V c t) (aBlk V c t) (bBlk V c t) (magBlk V c t) p = scales V c (ix1 (row t p)) :=
  Dora.rowScaleAt_congr (wBlk V c t) (wArr V c) (aBlk V c t) (aArr V c) (bBlk V c t) (bArr V c) (magBlk V c t) (magArr V c)
    p (row t p) (wBlk_at V c t p) (aBlk_at V c t) (bBlk_at V c t p) (magBlk_at V c t p)

/-- The body's value at any index of its block, by the index's one coordinate. -/
theorem payload_idx (x0 : Vec Ideal S256x4096 .f32) (x1 : Vec Ideal S64x4096 .f32) (x2 : Vec Ideal S256x64 .f32)
    (x3 : Vec Ideal S256 .f32) (y : S256.Idx) :
    k0_pay1 (F := Ideal) x0 x1 x2 x3 y = Dora.rowScaleAt x0 x1 x2 x3 (y 0) := by
  obtain ⟨p, rfl⟩ : ∃ p : Fin 256, y = ix1 p := ⟨y 0, eq_ix1 y⟩
  exact payload_at x0 x1 x2 x3 p

/-- What point t writes back is block t of the array of all row scales. -/
theorem flushed_scales (c : Dev nD) (t : Fin cfg0.N) :
    (dat0 V c).flushed 4 t = ((cfg0.win 4).blk t).view.read (Elt Ideal) (scales V c) := by
  show (cfg0.win 4).cut (grid0.coords t) ((dat0 V c).after 4 t) = _
  rw [after0_4]
  unfold out0_4
  rw [View.canon_unit_zero zero1]
  simp only [View.ld_unit_zero (S := S256x4096) zero2, View.ld_unit_zero (S := S64x4096) zero2,
    View.ld_unit_zero (S := S256x64) zero2, View.ld_unit_zero (S := S256) zero1]
  obtain ⟨-, -, -, -, -, -, -, e4⟩ := block_index t
  funext j
  refine (payload_idx (wBlk V c t) (aBlk V c t) (bBlk V c t) (magBlk V c t) _).trans ?_
  refine (block_scale V c t _).trans ?_
  show scales V c _ = scales V c (((cfg0.win 4).blk t).view.emb j)
  refine congrArg (scales V c) ?_
  funext a
  apply Fin.ext
  match a with
  | ⟨0, _⟩ => show 256 * t.val + (j 0).val = win0_4.index t (0 : Fin 1) * 256 + 1 * (j 0).val; omega

/-! ## The output array after the last write-back -/

/-- Every row of the output is in the block of the point (row / 256). -/
theorem rows_covered (i : S4096.Idx) :
    ∃ t : Fin cfg0.N, (cfg0.win 4).flush t = true ∧ i ∈ ((cfg0.win 4).blk t).view.set := by
  have hi : (i 0).val < 4096 := (i 0).isLt
  let t : Fin cfg0.N := ⟨(i 0).val / 256, by rw [show cfg0.N = 16 from N_0]; omega⟩
  obtain ⟨-, -, -, -, -, -, -, e4⟩ := block_index t
  have ht : t.val = (i 0).val / 256 := rfl
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 1) * 256 ≤ (i 0).val ∧ (i 0).val < win0_4.index t (0 : Fin 1) * 256 + 256
    omega

/-- After the launch the output array holds all row scales of the entry arrays. -/
theorem scales_final (c : Dev nD) : (dat0 V c).arrAt 4 cfg0.N = scales V c :=
  (dat0 V c).arrAt_eq_of_cover 4 (scales V c) (fun t _ => flushed_scales V c t) (rows_covered)

end Cert.Dora.Norm
-- ==== Proof.LibDotTransposedRhs.lean ====
/-
  The matrix product with the right factor transposed, read at one entry.

  The dimension numbers `DotDims.transposedRhs M K N` describe an M × K array times an N × K array with no batch axis:
  axis 1 of the left factor is contracted with axis 1 of the right factor, the left factor's axis 0 becomes the result's
  rows and the right factor's axis 0 its columns. So the result is A · Bᵀ. At result entry (i, j) and contraction
  position k the left factor is read at (i, c) and the right factor at (j, c), where c is the one coordinate of k (the
  contraction index set has a single axis, of extent K). Summing over k is summing over c, so over the extended reals
  the entry is

      ∑ q : Fin K, A (i, q) · B (j, q),

  one sum of products in which no law of the extended reals is used: only the index set of the sum is renamed. This
  holds for the kernel's product accumulated into an all-zero array (`matmul_zero_transposedRhs`) and for the host's
  product, which has no accumulator (`dotGeneral_transposedRhs`), whatever precision or schedule they carry.
-/
import Idealize.ShloMosaic.PureOps.Ideal.Laws
import Idealize.ShloMosaic.Lib.ValueIdx

noncomputable section

open scoped BigOperators

namespace Cert.LibDotTransposedRhs

open Idealize.ShloMosaic Idealize.ShloMosaic.ValueIdx

variable {M K N : Nat}

/-! ## The one coordinate of a contraction position -/

/-- The contraction index set of A · Bᵀ is a single axis of extent `K`; `pos k` is the coordinate of the position
    `k` along it, as a number below `K`. -/
def pos (k : (DotDims.transposedRhs M K N).contr.Idx) : Fin K :=
  contrEquiv1 (DotDims.transposedRhs M K N) K rfl rfl k

/-- Positions and coordinates correspond one to one, so a sum over the coordinates, read at `pos k`, is a sum over
    the positions. -/
theorem sum_pos {β : Type*} [AddCommMonoid β] (f : Fin K → β) :
    ∑ k : (DotDims.transposedRhs M K N).contr.Idx, f (pos k) = ∑ q : Fin K, f q :=
  Equiv.sum_comp (contrEquiv1 (DotDims.transposedRhs M K N) K rfl rfl) f

/-! ## The four coordinates the two factors are read at

Each is stated at the literal axis, for any result index `e` and any contraction position `k`. -/

/-- The left factor's row is the result's row. -/
theorem left_row (e : (⟨2, ![M, N]⟩ : Shape).Idx) (k : (DotDims.transposedRhs M K N).contr.Idx) :
    ((DotDims.transposedRhs M K N).lhsIdx e k 0).val = (e 0).val := rfl

/-- The left factor's column is the contraction coordinate. -/
theorem left_col (e : (⟨2, ![M, N]⟩ : Shape).Idx) (k : (DotDims.transposedRhs M K N).contr.Idx) :
    ((DotDims.transposedRhs M K N).lhsIdx e k 1).val = (pos k).val :=
  (DotDims.transposedRhs M K N).lhsIdx_val_of_single (cl := 1) rfl e k

/-- The right factor's row is the result's column: its axis 0 is its one free axis, the second of the result's. -/
theorem right_row (e : (⟨2, ![M, N]⟩ : Shape).Idx) (k : (DotDims.transposedRhs M K N).contr.Idx) :
    ((DotDims.transposedRhs M K N).rhsIdx e k 0).val = (e 1).val := rfl

/-- The right factor's column is the contraction coordinate. -/
theorem right_col (e : (⟨2, ![M, N]⟩ : Shape).Idx) (k : (DotDims.transposedRhs M K N).contr.Idx) :
    ((DotDims.transposedRhs M K N).rhsIdx e k 1).val = (pos k).val :=
  (DotDims.transposedRhs M K N).rhsIdx_val_of_single (cr := 1) rfl e k

/-! ## The two operand indices at entry (i, j) -/

/-- At result entry (i, j) and contraction position `k` the left factor is read at (i, `pos k`). -/
theorem left_at (i : Fin M) (j : Fin N) (k : (DotDims.transposedRhs M K N).contr.Idx) :
    (DotDims.transposedRhs M K N).lhsIdx (ix2 i j) k = ix2 i (pos k) := by
  funext a
  apply Fin.ext
  match a with
  | ⟨0, _⟩ => exact left_row (ix2 i j) k
  | ⟨1, _⟩ => exact left_col (ix2 i j) k

/-- At result entry (i, j) and contraction position `k` the right factor is read at (j, `pos k`). -/
theorem right_at (i : Fin M) (j : Fin N) (k : (DotDims.transposedRhs M K N).contr.Idx) :
    (DotDims.transposedRhs M K N).rhsIdx (ix2 i j) k = ix2 j (pos k) := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (j, q). -/
theorem sum_products {φ₁ φ₂ : FTy} (A : FVec Ideal ⟨2, ![M, K]⟩ φ₁) (B : FVec Ideal ⟨2, ![N, K]⟩ φ₂)
    (i : Fin M) (j : Fin N) :
    ∑ k : (DotDims.transposedRhs M K N).contr.Idx,
        A ((DotDims.transposedRhs M K N).lhsIdx (ix2 i j) k) * B ((DotDims.transposedRhs M K N).rhsIdx (ix2 i j) k)
      = ∑ q : Fin K, A (ix2 i q) * B (ix2 j q) := by
  rw [← sum_pos (M := M) (N := N) fun q => A (ix2 i q) * B (ix2 j q)]
  exact Finset.sum_congr rfl fun k _ => by rw [left_at, right_at]

/-! ## The two products at an entry -/

/-- The kernel's M × K by (N × K)ᵀ product accumulated into the all-zero M × N array, at the ideal values and at entry
    (i, j): the sum over q of A (i, q) · B (j, q). -/
theorem matmul_zero_transposedRhs (M K N : Nat) {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ q : Fin K, A (ix2 i q) * B (ix2 j q) :=
  (Ideal.matmul_constant_zero_apply (DotDims.transposedRhs M K N) prec A B (ix2 i j)).trans (sum_products A B i j)

/-- The host's M × K by (N × K)ᵀ product, at the ideal values and at entry (i, j): the sum over q of
    A (i, q) · B (j, q), whatever the precision annotation and the schedule. -/
theorem dotGeneral_transposedRhs (M K N : Nat) {φ₁ φ₂ : FTy} (prec : Option ContractPrecision) (sched : HostSchedule)
    (A : FVec Ideal ⟨2, ![M, K]⟩ φ₁) (B : FVec Ideal ⟨2, ![N, K]⟩ φ₂) (i : Fin M) (j : Fin N) :
    FloatOps.dotGeneral (DotDims.transposedRhs M K N) prec sched A B (ix2 i j)
      = ∑ q : Fin K, A (ix2 i q) * B (ix2 j q) :=
  (Ideal.dotGeneral_apply (DotDims.transposedRhs M K N) prec sched A B (ix2 i j)).trans (sum_products A B i j)

end Cert.LibDotTransposedRhs
-- ==== Proof.MainPayload.lean ====
/-
  The second launch's body at one entry.

  At a block of 256 rows of one batch the body drops the block's leading unit axis, projects the rows of x through A
  (a 256 × 4096 by (64 × 4096)ᵀ product into the zero array), sends the projection back through B (a 256 × 64 by
  (4096 × 64)ᵀ product into the zero array), doubles it, adds the block of the base output, multiplies by the row of
  scales broadcast over the 256 rows, and puts the unit axis back. Read at row p and column o this is the
  specification's `outAt` of row p of the two blocks: the inner product at (p, r) is the sum over d of
  x(p, d) · A(r, d), the outer one at (p, o) the sum over r of that times B(o, r), and every change of float format
  on the way is the identity on extended reals.
-/
import proofs.«124880_j14869176779242_1_alg».proof.Proof.Gen.KernelIdeal.Skeleton
import proofs.«124880_j14869176779242_1_alg».proof.Proof.Spec
import proofs.«124880_j14869176779242_1_alg».proof.Proof.LibDotTransposedRhs
import Idealize.ShloMosaic.Lib.ValueLayout

noncomputable section

open scoped BigOperators

namespace Cert.Dora.Main

open Cert.KernelIdeal Cert.KernelIdeal.Gen Idealize.ShloMosaic Idealize.ShloMosaic.ValueIdx

/-- The body's dimension numbers for x's rows times Aᵀ are those of a product with the right factor transposed. -/
theorem dims_proj : dot_S256x4096_S64x4096_S256x64_1_1_0_0_n_n = DotDims.transposedRhs 256 4096 64 := rfl

/-- So are those for the projection times Bᵀ. -/
theorem dims_back : dot_S256x64_S4096x64_S256x4096_1_1_0_0_n_n = DotDims.transposedRhs 256 64 4096 := rfl

/-- The rows of x projected through A, at (p, r). -/
theorem proj_at (X : FVec Ideal S256x4096 .f32) (A : FVec Ideal S64x4096 .f32) (p : Fin 256) (r : Fin 64) :
    matmul dot_S256x4096_S64x4096_S256x64_1_1_0_0_n_n none (truncf .bf16 X bitsLt_bf16_f32) (truncf .bf16 A bitsLt_bf16_f32)
        (constant S256x64 .f32 0x00000000#32) (ix2 p r)
      = ∑ d : Fin 4096, X (ix2 p d) * A (ix2 r d) := by
  rw [dims_proj]
  exact Cert.LibDotTransposedRhs.matmul_zero_transposedRhs 256 4096 64 none (truncf .bf16 X bitsLt_bf16_f32)
    (truncf .bf16 A bitsLt_bf16_f32) p r

/-- The projection sent back through B, at (p, o). -/
theorem back_at (Y : FVec Ideal S256x64 .f32) (B : FVec Ideal S4096x64 .f32) (p : Fin 256) (o : Fin 4096) :
    matmul dot_S256x64_S4096x64_S256x4096_1_1_0_0_n_n none (truncf .bf16 Y bitsLt_bf16_f32) (truncf .bf16 B bitsLt_bf16_f32)
        (constant S256x4096 .f32 0x00000000#32) (ix2 p o)
      = ∑ r : Fin 64, Y (ix2 p r) * B (ix2 o r) := by
  rw [dims_back]
  exact Cert.LibDotTransposedRhs.matmul_zero_transposedRhs 256 64 4096 none (truncf .bf16 Y bitsLt_bf16_f32)
    (truncf .bf16 B bitsLt_bf16_f32) p o

/-- The body's stored value at (u, p, o) is the specification's entry o from row p of the block of x and row p of the
    block of the base output, with the adapter factors and the scales it loaded whole. -/
theorem payload_at (x0 x1 : Vec Ideal S1x256x4096 .f32) (x2 : Vec Ideal S64x4096 .f32) (x3 : Vec Ideal S4096x64 .f32)
    (x4 : Vec Ideal S4096 .f32) (u : Fin 1) (p : Fin 256) (o : Fin 4096) :
    k1_pay1 (F := Ideal) x0 x1 x2 x3 x4 (ix3 u p o)
      = Dora.outAt (fun d => x0 (ix3 (0 : Fin 1) p d)) (fun o' => x1 (ix3 (0 : Fin 1) p o')) x2 x3 x4 o := by
  unfold k1_pay1 Dora.outAt
  simp only [shapeCast_ab_1ab_apply, mulf_apply, addf_apply, broadcast_apply, back_at, proj_at, shapeCast_1ab_ab_apply,
    broadcastTo_1b_ab_apply, shapeCast_a_1a_apply, shapeCast_self]
  rfl

end Cert.Dora.Main
-- ==== Proof.MainValue.lean ====
/-
  The second launch's output array: the specification's result from the arrays the launch is entered with.

  The grid has 2 × 16 points; point t works on batch t / 16 and on rows 256 (t mod 16) … 256 (t mod 16) + 255 of that
  batch of x and of the base output, with A, B and the scales whole, and writes back the same rows of the same batch
  of the output. What it writes at row p and column o of its block is the specification's entry from row p of its two
  blocks (the body's value at an entry), which is the entry at (batch, 256 (t mod 16) + p, o) of the whole arrays, an
  entry depending only on its rows. Every entry of the output lies in the block of the point
  16 · batch + row / 256, so after the last write-back the output array is the specification's result.
-/
import proofs.«124880_j14869176779242_1_alg».proof.Proof.Gen.KernelIdeal.Frame
import proofs.«124880_j14869176779242_1_alg».proof.Proof.MainPayload
import Idealize.ShloMosaic.Lib.Pipeline.Value

noncomputable section

namespace Cert.Dora.Main

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## The arrays the launch is entered with, and the blocks a point is handed -/

abbrev xArr (c : Dev nD) : Vec Ideal S2x4096x4096 .f32 := V c main_arg0
abbrev baseArr (c : Dev nD) : Vec Ideal S2x4096x4096 .f32 := V c main_arg1
abbrev aArr (c : Dev nD) : Vec Ideal S64x4096 .f32 := V c main_arg3
abbrev bArr (c : Dev nD) : Vec Ideal S4096x64 .f32 := V c main_arg4
abbrev scaleArr (c : Dev nD) : Vec Ideal S4096 .f32 := V c main_v0
abbrev xBlk (c : Dev nD) (t : Fin cfg1.N) : Vec Ideal S1x256x4096 .f32 := iblk1 V c 0 t
abbrev baseBlk (c : Dev nD) (t : Fin cfg1.N) : Vec Ideal S1x256x4096 .f32 := iblk1 V c 1 t
abbrev aBlk (c : Dev nD) (t : Fin cfg1.N) : Vec Ideal S64x4096 .f32 := iblk1 V c 2 t
abbrev bBlk (c : Dev nD) (t : Fin cfg1.N) : Vec Ideal S4096x64 .f32 := iblk1 V c 3 t
abbrev scaleBlk (c : Dev nD) (t : Fin cfg1.N) : Vec Ideal S4096 .f32 := iblk1 V c 4 t

/-- The specification's result of the entry arrays. -/
abbrev result (c : Dev nD) : Vec Ideal S2x4096x4096 .f32 :=
  Dora.scaled (xArr V c) (baseArr V c) (aArr V c) (bArr V c) (scaleArr V c)

/-- The block indices over the grid: the windows of x, of the base output and of the output sit at batch t / 16 and
    row block t mod 16; the windows of A, B and the scales stay at their one block. -/
theorem block_index : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 3) = t.val / 16 ∧ win1_5.index t (1 : Fin 3) = t.val % 16 ∧ win1_5.index t (2 : Fin 3) = 0 :=
  (by decide +kernel : ∀ t : Fin grid1.N, _)

theorem point_lt (t : Fin cfg1.N) : t.val < 32 := lt_of_lt_of_eq t.isLt N_1

/-- The batch point t works on. -/
def batch (t : Fin cfg1.N) : Fin 2 := ⟨t.val / 16, by have := point_lt t; omega⟩
/-- Row p of point t's blocks is row 256 (t mod 16) + p of that batch. -/
def seqRow (t : Fin cfg1.N) (p : Fin 256) : Fin 4096 := ⟨256 * (t.val % 16) + p.val, by omega⟩

/-! ## Each block read through the array -/

theorem xBlk_at (c : Dev nD) (t : Fin cfg1.N) (u : Fin 1) (p : Fin 256) (d : Fin 4096) :
    xBlk V c t (ix3 u p d) = xArr V c (ix3 (batch t) (seqRow t p) d) := by
  obtain ⟨e0, e1, e2, -⟩ := block_index t
  have hu : u.val = 0 := by omega
  show xArr V c (((cfg1.win 0).blk t).view.emb (ix3 u p d)) = xArr V c (ix3 (batch t) (seqRow t p) d)
  refine congrArg (xArr V c) ?_
  funext a
  apply Fin.ext
  match a with
  | ⟨0, _⟩ => show win1_0.index t (0 : Fin 3) * 1 + 1 * u.val = t.val / 16; omega
  | ⟨1, _⟩ => show win1_0.index t (1 : Fin 3) * 256 + 1 * p.val = 256 * (t.val % 16) + p.val; omega
  | ⟨2, _⟩ => show win1_0.index t (2 : Fin 3) * 4096 + 1 * d.val = d.val; omega

theorem baseBlk_at (c : Dev nD) (t : Fin cfg1.N) (u : Fin 1) (p : Fin 256) (o : Fin 4096) :
    baseBlk V c t (ix3 u p o) = baseArr V c (ix3 (batch t) (seqRow t p) o) := by
  obtain ⟨-, -, -, e0, e1, e2, -⟩ := block_index t
  have hu : u.val = 0 := by omega
  show baseArr V c (((cfg1.win 1).blk t).view.emb (ix3 u p o)) = baseArr V c (ix3 (batch t) (seqRow t p) o)
  refine congrArg (baseArr V c) ?_
  funext a
  apply Fin.ext
  match a with
  | ⟨0, _⟩ => show win1_1.index t (0 : Fin 3) * 1 + 1 * u.val = t.val / 16; omega
  | ⟨1, _⟩ => show win1_1.index t (1 : Fin 3) * 256 + 1 * p.val = 256 * (t.val % 16) + p.val; omega
  | ⟨2, _⟩ => show win1_1.index t (2 : Fin 3) * 4096 + 1 * o.val = o.val; omega

theorem aBlk_at (c : Dev nD) (t : Fin cfg1.N) (r : Fin 64) (d : Fin 4096) :
    aBlk V c t (ix2 r d) = aArr V c (ix2 r d) := by
  obtain ⟨-, -, -, -, -, -, e0, e1, -⟩ := block_index t
  show aArr V c (((cfg1.win 2).blk t).view.emb (ix2 r d)) = aArr V c (ix2 r d)
  refine congrArg (aArr V c) ?_
  funext a
  apply Fin.ext
  match a with
  | ⟨0, _⟩ => show win1_2.index t (0 : Fin 2) * 64 + 1 * r.val = r.val; omega
  | ⟨1, _⟩ => show win1_2.index t (1 : Fin 2) * 4096 + 1 * d.val = d.val; omega

theorem bBlk_at (c : Dev nD) (t : Fin cfg1.N) (o : Fin 4096) (r : Fin 64) :
    bBlk V c t (ix2 o r) = bArr V c (ix2 o r) := by
  obtain ⟨-, -, -, -, -, -, -, -, e0, e1, -⟩ := block_index t
  show bArr V c (((cfg1.win 3).blk t).view.emb (ix2 o r)) = bArr V c (ix2 o r)
  refine congrArg (bArr V c) ?_
  funext a
  apply Fin.ext
  match a with
  | ⟨0, _⟩ => show win1_3.index t (0 : Fin 2) * 4096 + 1 * o.val = o.val; omega
  | ⟨1, _⟩ => show win1_3.index t (1 : Fin 2) * 64 + 1 * r.val = r.val; omega

theorem scaleBlk_at (c : Dev nD) (t : Fin cfg1.N) (o : Fin 4096) :
    scaleBlk V c t (ix1 o) = scaleArr V c (ix1 o) := by
  obtain ⟨-, -, -, -, -, -, -, -, -, -, e0, -⟩ := block_index t
  show scaleArr V c (((cfg1.win 4).blk t).view.emb (ix1 o)) = scaleArr V c (ix1 o)
  refine congrArg (scaleArr V c) ?_
  funext a
  apply Fin.ext
  match a with
  | ⟨0, _⟩ => show win1_4.index t (0 : Fin 1) * 4096 + 1 * o.val = o.val; omega

/-! ## What a point writes back -/

/-- The entry from row p of point t's blocks is the result's entry at (batch, 256 (t mod 16) + p, o). -/
theorem block_entry (c : Dev nD) (t : Fin cfg1.N) (p : Fin 256) (o : Fin 4096) :
    Dora.outAt (fun d => xBlk V c t (ix3 (0 : Fin 1) p d)) (fun o' => baseBlk V c t (ix3 (0 : Fin 1) p o'))
        (aBlk V c t) (bBlk V c t) (scaleBlk V c t) o
      = result V c (ix3 (batch t) (seqRow t p) o) := by
  show _ = Dora.scaled (xArr V c) (baseArr V c) (aArr V c) (bArr V c) (scaleArr V c) (ix3 (batch t) (seqRow t p) o)
  rw [Dora.scaled_ix3]
  exact Dora.outAt_congr _ _ _ _ (aBlk V c t) (aArr V c) (bBlk V c t) (bArr V c) (scaleBlk V c t) (scaleArr V c) o
    (fun d => xBlk_at V c t 0 p d) (baseBlk_at V c t 0 p o) (aBlk_at V c t) (fun r => bBlk_at V c t o r) (scaleBlk_at V c t o)

/-- The body's value at any index of its block, by the index's coordinates. -/
theorem payload_idx (x0 x1 : Vec Ideal S1x256x4096 .f32) (x2 : Vec Ideal S64x4096 .f32) (x3 : Vec Ideal S4096x64 .f32)
    (x4 : Vec Ideal S4096 .f32) (y : S1x256x4096.Idx) :
    k1_pay1 (F := Ideal) x0 x1 x2 x3 x4 y
      = Dora.outAt (fun d => x0 (ix3 (0 : Fin 1) (y 1) d)) (fun o' => x1 (ix3 (0 : Fin 1) (y 1) o')) x2 x3 x4 (y 2) := by
  obtain ⟨u, p, o, rfl⟩ : ∃ (u : Fin 1) (p : Fin 256) (o : Fin 4096), y = ix3 u p o := ⟨y 0, y 1, y 2, eq_ix3 y⟩
  exact payload_at x0 x1 x2 x3 x4 u p o

/-- What point t writes back is block t of the specification's result. -/
theorem flushed_result (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero3]
  simp only [View.ld_unit_zero (S := S1x256x4096) zero3, View.ld_unit_zero (S := S64x4096) zero2,
    View.ld_unit_zero (S := S4096x64) zero2, View.ld_unit_zero (S := S4096) zero1]
  obtain ⟨-, -, -, -, -, -, -, -, -, -, -, e0, e1, e2⟩ := block_index t
  funext j
  have hj0 : (j 0).val < 1 := (j 0).isLt
  refine (payload_idx (xBlk V c t) (baseBlk V c t) (aBlk V c t) (bBlk V c t) (scaleBlk V c t) _).trans ?_
  refine (block_entry V c t _ _).trans ?_
  show result V c _ = result V c (((cfg1.win 5).blk t).view.emb j)
  refine congrArg (result V c) ?_
  funext a
  apply Fin.ext
  match a with
  | ⟨0, _⟩ => show t.val / 16 = win1_5.index t (0 : Fin 3) * 1 + 1 * (j 0).val; omega
  | ⟨1, _⟩ => show 256 * (t.val % 16) + (j 1).val = win1_5.index t (1 : Fin 3) * 256 + 1 * (j 1).val; omega
  | ⟨2, _⟩ => show (j 2).val = win1_5.index t (2 : Fin 3) * 4096 + 1 * (j 2).val; omega

/-! ## The output array after the last write-back -/

/-- Every entry of the output is in the block of the point 16 · batch + row / 256. -/
theorem entries_covered (i : S2x4096x4096.Idx) :
    ∃ t : Fin cfg1.N, (cfg1.win 5).flush t = true ∧ i ∈ ((cfg1.win 5).blk t).view.set := by
  have hi0 : (i 0).val < 2 := (i 0).isLt
  have hi1 : (i 1).val < 4096 := (i 1).isLt
  have hi2 : (i 2).val < 4096 := (i 2).isLt
  let t : Fin cfg1.N := ⟨(i 0).val * 16 + (i 1).val / 256, by rw [show cfg1.N = 32 from N_1]; omega⟩
  obtain ⟨-, -, -, -, -, -, -, -, -, -, -, e0, e1, e2⟩ := block_index t
  have ht : t.val = (i 0).val * 16 + (i 1).val / 256 := rfl
  refine ⟨t, flush1_5 t, ?_⟩
  show i ∈ ((View.whole main_v1).slice (win1_5.rect t)).set
  rw [View.set_slice_whole, Rect.mem_set_unit]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 256 ≤ (i 1).val ∧ (i 1).val < win1_5.index t (1 : Fin 3) * 256 + 256
    omega
  | ⟨2, _⟩ =>
    show win1_5.index t (2 : Fin 3) * 4096 ≤ (i 2).val ∧ (i 2).val < win1_5.index t (2 : Fin 3) * 4096 + 4096
    omega

/-- After the launch the output array holds the specification's result of the entry arrays. -/
theorem result_final (c : Dev nD) : (dat1 V c).arrAt 5 cfg1.N = result V c :=
  (dat1 V c).arrAt_eq_of_cover 5 (result V c) (fun t _ => flushed_result V c t) (entries_covered)

end Cert.Dora.Main
-- ==== Proof.KernelValue.lean ====
/-
  The idealized kernel's run, read: the result array ends at the specification's layer of the six arguments.

  The first launch is entered with the launch memory, so its output, the array of scales, ends at the row scales of
  W, A, B and the magnitude as launched. The second launch is entered with what the first left: x and the base
  output, which the first launch does not touch, A and B, which it only reads, and the scales it wrote. Its output
  is the specification's result of those, which is the layer of the arguments as launched.
-/
import proofs.«124880_j14869176779242_1_alg».proof.Proof.KernelIdealRun
import proofs.«124880_j14869176779242_1_alg».proof.Proof.NormValue
import proofs.«124880_j14869176779242_1_alg».proof.Proof.MainValue

noncomputable section

namespace Cert.Dora.Kernel

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as launched -/

abbrev argX (c : Dev nD) : Vec Ideal S2x4096x4096 .f32 := m ((c.tc : Thread nD τ).loc main_arg0)
abbrev argBase (c : Dev nD) : Vec Ideal S2x4096x4096 .f32 := m ((c.tc : Thread nD τ).loc main_arg1)
abbrev argW (c : Dev nD) : Vec Ideal S4096x4096 .f32 := m ((c.tc : Thread nD τ).loc main_arg2)
abbrev argA (c : Dev nD) : Vec Ideal S64x4096 .f32 := m ((c.tc : Thread nD τ).loc main_arg3)
abbrev argB (c : Dev nD) : Vec Ideal S4096x64 .f32 := m ((c.tc : Thread nD τ).loc main_arg4)
abbrev argMag (c : Dev nD) : Vec Ideal S4096 .f32 := m ((c.tc : Thread nD τ).loc main_arg5)

/-! ## What the second launch is entered with -/

/-- The scales: what the first launch wrote, the row scales of the arguments. -/
theorem scale_entry (c : Dev nD) :
    Main.scaleArr (V1 m ρ) c = Dora.rowScale (argW m c) (argA m c) (argB m c) (argMag m c) :=
  (W1_arr m ρ c 4).trans (Norm.scales_final (V0 m ρ) c)

/-- x: not an array of the first launch, so as launched. -/
theorem x_entry (c : Dev nD) : Main.xArr (V1 m ρ) c = argX m c := W1_of_ne m ρ c main_arg0 (by decide)

/-- The base output: likewise. -/
theorem base_entry (c : Dev nD) : Main.baseArr (V1 m ρ) c = argBase m c := W1_of_ne m ρ c main_arg1 (by decide)

/-- A: an input of the first launch, left as it was entered. -/
theorem a_entry (c : Dev nD) : Main.aArr (V1 m ρ) c = argA m c :=
  (W1_arr m ρ c 1).trans (((dat0 (V0 m ρ) c).arrAt_in 1 rfl _).trans (A_eq0 (V0 m ρ) c 1))

/-- B: likewise. -/
theorem b_entry (c : Dev nD) : Main.bArr (V1 m ρ) c = argB m c :=
  (W1_arr m ρ c 2).trans (((dat0 (V0 m ρ) c).arrAt_in 2 rfl _).trans (A_eq0 (V0 m ρ) c 2))

/-! ## The result array after the run -/

/-- The last boundary's contents of the result array: the layer of the arguments. -/
theorem result_after (c : Dev nD) :
    W2 m ρ c (Proc.devRef .tc main_v1)
      = Dora.layer (argX m c) (argBase m c) (argW m c) (argA m c) (argB m c) (argMag m c) := by
  refine (W2_arr m ρ c 5).trans ((Main.result_final (V1 m ρ) c).trans ?_)
  show Dora.scaled (Main.xArr (V1 m ρ) c) (Main.baseArr (V1 m ρ) c) (Main.aArr (V1 m ρ) c) (Main.bArr (V1 m ρ) c)
      (Main.scaleArr (V1 m ρ) c) = _
  rw [x_entry, base_entry, a_entry, b_entry, scale_entry]
  rfl

/-- The run, read: every weakly fair execution of the idealized kernel's @main terminates, the result array at the
    layer of the arguments, the arguments unchanged. -/
theorem run : θ_run defs (onTc (τ := τ) (main (F := Ideal))) ⟨m, fun _ => 0, ρ⟩ (fun r => ∀ c : Dev nD,
      r.2.mem ((c.tc : Thread nD τ).loc main_v1)
        = Dora.layer (argX m c) (argBase m c) (argW m c) (argA m c) (argB m c) (argMag m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_after m ρ c), (h c).2⟩)
    (Cert.KernelIdeal.Named.run_named (F := Ideal) m ρ)

end Cert.Dora.Kernel
-- ==== Proof.RefValue.lean ====
/-
  The reference computes the layer of the specification.

  Its last stage multiplies base + 2 · (x · Aᵀ) · Bᵀ by the row scales broadcast along the first two axes; the row
  scales are the magnitude over the guarded norm of the rows of W + 2 · (B · A). Reading every stage at an index
  gives, entry by entry, exactly the sums the specification is written with: the contraction index of each of the three
  products runs over the same range and the factors stand in the same order, and the host's sum over a row starts
  from the float zero, which is the real zero. No law of the extended reals beyond 0 + a = a is used.
-/
import proofs.«124880_j14869176779242_1_alg».proof.Proof.Gen.ReferenceIdeal.Run
import proofs.«124880_j14869176779242_1_alg».proof.Proof.Gen.ReferenceIdeal.Read
import proofs.«124880_j14869176779242_1_alg».proof.Proof.Spec

noncomputable section

open scoped BigOperators

namespace Cert.Dora.Ref

open Cert.ReferenceIdeal Cert.ReferenceIdeal.Read Idealize.ShloMosaic Idealize.ShloMosaic.ValueIdx

/-! ## Where each stage reads its operands -/

/-- The row sum at row o reads the squared adapted weight at (o, k). -/
theorem rowsum_at (o k : Fin 4096) : idx_main_v9 (ix1 o) k = ix2 o k :=
  funext fun a => Fin.ext (by match a with | ⟨0, _⟩ => rfl | ⟨1, _⟩ => rfl)

/-- B · A at (o, d) reads B at (o, k) … -/
theorem ba_left (o d : Fin 4096) (k : Fin 64) : lidx_main_v4 (ix2 o d) k = ix2 o k :=
  funext fun a => Fin.ext (by match a with | ⟨0, _⟩ => rfl | ⟨1, _⟩ => rfl)

/-- … and A at (k, d). -/
theorem ba_right (o d : Fin 4096) (k : Fin 64) : ridx_main_v4 (ix2 o d) k = ix2 k d :=
  funext fun a => Fin.ext (by match a with | ⟨0, _⟩ => rfl | ⟨1, _⟩ => rfl)

/-- x · Aᵀ at (b, s, r) reads x at (b, s, d) … -/
theorem xa_left (b : Fin 2) (s : Fin 4096) (r : Fin 64) (d : Fin 4096) :
    lidx_main_v0 (ix3 b s r) d = ix3 b s d :=
  funext fun a => Fin.ext (by match a with | ⟨0, _⟩ => rfl | ⟨1, _⟩ => rfl | ⟨2, _⟩ => rfl)

/-- … and A at (r, d). -/
theorem xa_right (b : Fin 2) (s : Fin 4096) (r : Fin 64) (d : Fin 4096) :
    ridx_main_v0 (ix3 b s r) d = ix2 r d :=
  funext fun a => Fin.ext (by match a with | ⟨0, _⟩ => rfl | ⟨1, _⟩ => rfl)

/-- (x · Aᵀ) · Bᵀ at (b, s, o) reads x · Aᵀ at (b, s, r) … -/
theorem xab_left (b : Fin 2) (s o : Fin 4096) (r : Fin 64) : lidx_main_v1 (ix3 b s o) r = ix3 b s r :=
  funext fun a => Fin.ext (by match a with | ⟨0, _⟩ => rfl | ⟨1, _⟩ => rfl | ⟨2, _⟩ => rfl)

/-- … and B at (o, r). -/
theorem xab_right (b : Fin 2) (s o : Fin 4096) (r : Fin 64) : ridx_main_v1 (ix3 b s o) r = ix2 o r :=
  funext fun a => Fin.ext (by match a with | ⟨0, _⟩ => rfl | ⟨1, _⟩ => rfl)

/-- The scales broadcast over the first two axes are read, at (b, s, o), at o. -/
theorem scale_at (b : Fin 2) (s o : Fin 4096) : idx_main_v15 (idx_main_v16 (ix3 b s o)) = ix1 o :=
  funext fun a => Fin.ext (by match a with | ⟨0, _⟩ => rfl)

/-! ## The row scales -/

/-- The reference's scale stage is the specification's row scales of W, A, B and the magnitude. -/
theorem scale_eq (x2 : (⟨S4096x4096, .f32⟩ : BufTy).Contents (Elt Ideal)) (x3 : (⟨S64x4096, .f32⟩ : BufTy).Contents (Elt Ideal))
    (x4 : (⟨S4096x64, .f32⟩ : BufTy).Contents (Elt Ideal)) (x5 : (⟨S4096, .f32⟩ : BufTy).Contents (Elt Ideal)) :
    val_main_v13 (F := Ideal) x2 x3 x4 x5 = Dora.rowScale x2 x3 x4 x5 := by
  funext j
  obtain ⟨o, rfl⟩ : ∃ o : Fin 4096, j = ix1 o := ⟨j 0, eq_ix1 j⟩
  rw [Dora.rowScale_ix1, val_main_v13_apply, val_main_v12_apply, val_main_v10_apply, val_main_v9_apply, val_main_v11_apply,
    val_main_cst_2_apply, val_main_cst_1_apply]
  unfold Dora.rowScaleAt Dora.adapted
  simp only [rowsum_at, val_main_v8_apply, val_main_v7_apply, val_main_v6_apply, val_main_v4_apply, val_main_v5_apply,
    val_main_cst_0_apply, ba_left, ba_right, Ideal.hostDivf_def, Ideal.addf_def, Ideal.mulf_def, Ideal.hostUnary_sqrt_def,
    Ideal.ofBits_def, Ideal.ofBits_zero_f32, zero_add]

/-! ## The result -/

/-- The reference's result stage is the specification's layer of the six arguments. -/
theorem result_eq (x0 x1 : (⟨S2x4096x4096, .f32⟩ : BufTy).Contents (Elt Ideal)) (x2 : (⟨S4096x4096, .f32⟩ : BufTy).Contents (Elt Ideal))
    (x3 : (⟨S64x4096, .f32⟩ : BufTy).Contents (Elt Ideal)) (x4 : (⟨S4096x64, .f32⟩ : BufTy).Contents (Elt Ideal))
    (x5 : (⟨S4096, .f32⟩ : BufTy).Contents (Elt Ideal)) :
    val_main_v17 (F := Ideal) x0 x1 x2 x3 x4 x5 = Dora.layer x0 x1 x2 x3 x4 x5 := by
  funext i
  obtain ⟨b, s, o, rfl⟩ : ∃ (b : Fin 2) (s o : Fin 4096), i = ix3 b s o := ⟨i 0, i 1, i 2, eq_ix3 i⟩
  unfold Dora.layer
  rw [Dora.scaled_ix3, val_main_v17_apply, val_main_v16_apply, val_main_v15_apply, scale_at, scale_eq, val_main_v14_apply,
    val_main_v3_apply, val_main_v1_apply, val_main_v2_apply, val_main_cst_apply]
  unfold Dora.outAt
  simp only [xab_left, xab_right, val_main_v0_apply, xa_left, xa_right, Ideal.addf_def, Ideal.mulf_def, Ideal.ofBits_def]

end Cert.Dora.Ref
-- ==== Proof.lean ====
/-
  The certificate of a low-rank-adapted linear layer with per-row magnitude rescaling.

  The kernel runs two launches. The first forms, for each of the 4096 rows o of the weight, the scale
  mag(o) / (√(∑ d, (W(o, d) + 2 · ∑ r, B(o, r) · A(r, d))²) + guard); the second forms
  (base + 2 · (x · Aᵀ) · Bᵀ) · scale, the scale broadcast along the batch and sequence axes. The reference computes the
  same two things with whole-array host operations. Over the extended reals a change of float format is the
  identity, a product into the zero array is the plain sum of products, and the two programs apply the same
  operations to the same operands in the same order; the only difference is that the kernel works block by block,
  which changes no entry because each entry depends on its own rows only. So both end at one function of the six
  arguments, `Cert.Dora.layer` (Proof/Spec.lean), and the precondition is never opened: no law that fails at an
  infinity is used.

  The three frames are the generated ones (the reference's is its generated run with the result dropped); the ideal
  pass rewrote nothing, so the kernel's idealization has nothing to preserve; the equivalence joins the kernel's run read
  (Proof/KernelValue.lean) with the reference's run read (Proof/RefValue.lean).
-/
import proofs.«124880_j14869176779242_1_alg».proof.Defs
import proofs.«124880_j14869176779242_1_alg».proof.Proof.Gen.Kernel
import proofs.«124880_j14869176779242_1_alg».proof.Proof.Gen.Kernel.Skeleton
import proofs.«124880_j14869176779242_1_alg».proof.Proof.Gen.Kernel.Launch
import proofs.«124880_j14869176779242_1_alg».proof.Proof.Gen.Kernel.Points
import proofs.«124880_j14869176779242_1_alg».proof.Proof.Gen.Kernel.Frame
import proofs.«124880_j14869176779242_1_alg».proof.Proof.Gen.KernelIdeal
import proofs.«124880_j14869176779242_1_alg».proof.Proof.Gen.KernelIdeal.Skeleton
import proofs.«124880_j14869176779242_1_alg».proof.Proof.Gen.KernelIdeal.Launch
import proofs.«124880_j14869176779242_1_alg».proof.Proof.Gen.KernelIdeal.Points
import proofs.«124880_j14869176779242_1_alg».proof.Proof.Gen.KernelIdeal.Frame
import proofs.«124880_j14869176779242_1_alg».proof.Proof.Gen.ReferenceIdeal
import proofs.«124880_j14869176779242_1_alg».proof.Proof.Gen.ReferenceIdeal.Run
import proofs.«124880_j14869176779242_1_alg».proof.Proof.Gen.ReferenceIdeal.Read
import proofs.«124880_j14869176779242_1_alg».proof.Proof.Gen.Pre_finite_inputs
import proofs.«124880_j14869176779242_1_alg».proof.Proof.KernelValue
import proofs.«124880_j14869176779242_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the result array at the layer of
    the arguments. -/
theorem algebraic : Cert.algebraic_KernelIdeal_ReferenceIdeal := by
  intro m ρ m' ρ' _ hagree
  refine ⟨fun c => Cert.Dora.layer (Cert.Dora.Kernel.argX m c) (Cert.Dora.Kernel.argBase m c) (Cert.Dora.Kernel.argW m c)
    (Cert.Dora.Kernel.argA m c) (Cert.Dora.Kernel.argB m c) (Cert.Dora.Kernel.argMag m c), Cert.Dora.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v17_eq, Cert.Dora.Ref.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
